-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x8x2048 : Shape := ⟨4, ![64, 32, 8, 2048]⟩
abbrev S64x32x2048 : Shape := ⟨3, ![64, 32, 2048]⟩
abbrev S64x2048 : Shape := ⟨2, ![64, 2048]⟩
abbrev S2048x64 : Shape := ⟨2, ![2048, 64]⟩
abbrev S_ : Shape := ⟨0, ![]⟩

class Facts : Prop where
  bcast_S_S64x32x8x2048 : S_.BroadcastsInDim S64x32x8x2048 (![] : Fin 0 → Fin S64x32x8x2048.rank)
  reducesTo_S64x32x8x2048_S_d0_1_2_3 : S64x32x8x2048.ReducesTo [0, 1, 2, 3] S_
  h_S_ : 0 < S_.numel
  bcast_S_S64x32x2048 : S_.BroadcastsInDim S64x32x2048 (![] : Fin 0 → Fin S64x32x2048.rank)
  reducesTo_S64x32x2048_S_d0_1_2 : S64x32x2048.ReducesTo [0, 1, 2] S_
  bcast_S_S64x2048 : S_.BroadcastsInDim S64x2048 (![] : Fin 0 → Fin S64x2048.rank)
  reducesTo_S64x2048_S_d0_1 : S64x2048.ReducesTo [0, 1] S_

variable [Facts]

def fn_part1 {F : FTy → Type} [FloatOps F] (main_arg4 : FVec F S64x2048 .f32) (main_v13 : IVec S_ 1) (main_v16 : IVec S64x32x2048 1) : IVec S_ 1 :=
  let main_c_5 : IVec S_ 1 := constantI S_ 1 1#1
  let main_v17 : IVec S_ 1 := (fun x v => Host.reduce IntOp.andi x v reducesTo_S64x32x2048_S_d0_1_2 h_S_) main_v16 main_c_5
  let main_v18 : IVec S_ 1 := andi main_v13 main_v17
  let main_v19 : FVec F S64x2048 .f32 := Host.absf main_arg4
  let main_cst_6 : FVec F S_ .f32 := constant S_ .f32 0x7F800000#32
  let main_v20 : FVec F S64x2048 .f32 := broadcastInDim S64x2048 ![] bcast_S_S64x2048 main_cst_6
  let main_v21 : IVec S64x2048 1 := cmpf .olt main_v19 main_v20
  let main_c_7 : IVec S_ 1 := constantI S_ 1 1#1
  let main_v22 : IVec S_ 1 := (fun x v => Host.reduce IntOp.andi x v reducesTo_S64x2048_S_d0_1 h_S_) main_v21 main_c_7
  let main_v23 : IVec S_ 1 := andi main_v18 main_v22
  main_v23

def fn {F : FTy → Type} [FloatOps F] (main_arg0 : FVec F S64x32x8x2048 .f32) (main_arg1 : FVec F S64x32x8x2048 .f32) (main_arg2 : FVec F S64x32x2048 .f32) (main_arg3 : FVec F S64x32x2048 .f32) (main_arg4 : FVec F S64x2048 .f32) (main_arg5 : IVec S2048x64 1) : IVec S_ 1 :=
  let main_v0 : FVec F S64x32x8x2048 .f32 := Host.absf main_arg0
  let main_cst : FVec F S_ .f32 := constant S_ .f32 0x7F800000#32
  let main_v1 : FVec F S64x32x8x2048 .f32 := broadcastInDim S64x32x8x2048 ![] bcast_S_S64x32x8x2048 main_cst
  let main_v2 : IVec S64x32x8x2048 1 := cmpf .olt main_v0 main_v1
  let main_c : IVec S_ 1 := constantI S_ 1 1#1
  let main_v3 : IVec S_ 1 := (fun x v => Host.reduce IntOp.andi x v reducesTo_S64x32x8x2048_S_d0_1_2_3 h_S_) main_v2 main_c
  let main_v4 : FVec F S64x32x8x2048 .f32 := Host.absf main_arg1
  let main_cst_0 : FVec F S_ .f32 := constant S_ .f32 0x7F800000#32
  let main_v5 : FVec F S64x32x8x2048 .f32 := broadcastInDim S64x32x8x2048 ![] bcast_S_S64x32x8x2048 main_cst_0
  let main_v6 : IVec S64x32x8x2048 1 := cmpf .olt main_v4 main_v5
  let main_c_1 : IVec S_ 1 := constantI S_ 1 1#1
  let main_v7 : IVec S_ 1 := (fun x v => Host.reduce IntOp.andi x v reducesTo_S64x32x8x2048_S_d0_1_2_3 h_S_) main_v6 main_c_1
  let main_v8 : IVec S_ 1 := andi main_v3 main_v7
  let main_v9 : FVec F S64x32x2048 .f32 := Host.absf main_arg2
  let main_cst_2 : FVec F S_ .f32 := constant S_ .f32 0x7F800000#32
  let main_v10 : FVec F S64x32x2048 .f32 := broadcastInDim S64x32x2048 ![] bcast_S_S64x32x2048 main_cst_2
  let main_v11 : IVec S64x32x2048 1 := cmpf .olt main_v9 main_v10
  let main_c_3 : IVec S_ 1 := constantI S_ 1 1#1
  let main_v12 : IVec S_ 1 := (fun x v => Host.reduce IntOp.andi x v reducesTo_S64x32x2048_S_d0_1_2 h_S_) main_v11 main_c_3
  let main_v13 : IVec S_ 1 := andi main_v8 main_v12
  let main_v14 : FVec F S64x32x2048 .f32 := Host.absf main_arg3
  let main_cst_4 : FVec F S_ .f32 := constant S_ .f32 0x7F800000#32
  let main_v15 : FVec F S64x32x2048 .f32 := broadcastInDim S64x32x2048 ![] bcast_S_S64x32x2048 main_cst_4
  let main_v16 : IVec S64x32x2048 1 := cmpf .olt main_v14 main_v15
  fn_part1 (F := F) main_arg4 main_v13 main_v16
-- ==== Kernel.lean ====
abbrev S64x32x8x2048 : Shape := ⟨4, ![64, 32, 8, 2048]⟩
abbrev S64x32x2048 : Shape := ⟨3, ![64, 32, 2048]⟩
abbrev S64x2048 : Shape := ⟨2, ![64, 2048]⟩
abbrev S2048x64 : Shape := ⟨2, ![2048, 64]⟩
abbrev S1x2048 : Shape := ⟨2, ![1, 2048]⟩
abbrev S64x16x8x128 : Shape := ⟨4, ![64, 16, 8, 128]⟩
abbrev S64x16x128 : Shape := ⟨3, ![64, 16, 128]⟩
abbrev S64x128 : Shape := ⟨2, ![64, 128]⟩
abbrev S1x128 : Shape := ⟨2, ![1, 128]⟩
abbrev S64x1x128 : Shape := ⟨3, ![64, 1, 128]⟩
abbrev S128 : Shape := ⟨1, ![128]⟩
abbrev S2048 : Shape := ⟨1, ![2048]⟩
abbrev S_ : Shape := ⟨0, ![]⟩

abbrev nBuf : Space → Nat
  | .hbm => 14
  | .vmem => 16
  | .smem => 0
  | _ => 0

abbrev bufTy : (tb : Table) → Fin (tcTables nBuf tb) → BufTy
  | .hbm, ⟨0, _⟩ => ⟨S64x32x8x2048, .f32⟩
  | .hbm, ⟨1, _⟩ => ⟨S64x32x8x2048, .f32⟩
  | .hbm, ⟨2, _⟩ => ⟨S64x32x2048, .f32⟩
  | .hbm, ⟨3, _⟩ => ⟨S64x32x2048, .f32⟩
  | .hbm, ⟨4, _⟩ => ⟨S64x2048, .f32⟩
  | .hbm, ⟨5, _⟩ => ⟨S2048x64, .i1⟩
  | .hbm, ⟨6, _⟩ => ⟨S64x2048, .i1⟩
  | .hbm, ⟨7, _⟩ => ⟨S64x2048, .f32⟩
  | .hbm, ⟨8, _⟩ => ⟨S1x2048, .f32⟩
  | .hbm, ⟨9, _⟩ => ⟨S2048, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S64x16x8x128, .f32⟩
  | .local _ .vmem, ⟨1, _⟩ => ⟨S64x16x8x128, .f32⟩
  | .local _ .vmem, ⟨2, _⟩ => ⟨S64x16x8x128, .f32⟩
  | .local _ .vmem, ⟨3, _⟩ => ⟨S64x16x8x128, .f32⟩
  | .local _ .vmem, ⟨4, _⟩ => ⟨S64x16x128, .f32⟩
  | .local _ .vmem, ⟨5, _⟩ => ⟨S64x16x128, .f32⟩
  | .local _ .vmem, ⟨6, _⟩ => ⟨S64x16x128, .f32⟩
  | .local _ .vmem, ⟨7, _⟩ => ⟨S64x16x128, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | .local _ .vmem, ⟨12, _⟩ => ⟨S1x128, .f32⟩
  | .local _ .vmem, ⟨13, _⟩ => ⟨S1x128, .f32⟩
  | .local _ .vmem, ⟨14, _⟩ => ⟨S64x128, .f32⟩
  | .local _ .vmem, ⟨15, _⟩ => ⟨S64x128, .f32⟩
  | _, _ => ⟨S64x32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v40 : BitVec 1 := Scalar.cmpi .eq arg1 c1_i32
  let v41 : BitVec 32 := Scalar.extui v40
  let c0_i32_31 : BitVec 32 := 0#32
  let v42 : BitVec 1 := Scalar.cmpi .ne v41 c0_i32_31
  v42

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat, arg0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x16x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x16x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  transposes_S2048x64_S64x2048_1_0 : S2048x64.Transposes [1, 0] S64x2048
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x16x8x128_S64x16x8x128_0_0_0_0 : ∀ a, (![0, 0, 0, 0] : Fin 4 → Nat) a + S64x16x8x128.size a ≤ S64x16x8x128.size a
  h_S64x16x8x128 : 0 < S64x16x8x128.numel
  reduces_S64x16x8x128_S64x16x128 : S64x16x8x128.Reduces [2] S64x16x128
  shapeCasts_S64x128_S64x1x128 : S64x128.ShapeCasts S64x1x128
  inb_S64x16x128_S64x16x128_0_0_0 : ∀ a, (![0, 0, 0] : Fin 3 → Nat) a + S64x16x128.size a ≤ S64x16x128.size a
  h_S64x16x128 : 0 < S64x16x128.numel
  broadcasts_S64x1x128_S64x16x128 : S64x1x128.Broadcasts S64x16x128
  reduces_S64x16x128_S64x128 : S64x16x128.Reduces [1] S64x128
  reduces_S64x128_S128 : S64x128.Reduces [0] S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x2048_S2048 : S1x2048.ShapeCasts S2048
  reducesTo_S2048_S_d0 : S2048.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16x8x128.size a ≤ S64x32x8x2048.size a
  hwx0_0 : ∀ i : grid0.Coords, EltTy.bits .f32 = 32 ∨ (Rect.block (s := S64x32x8x2048) S64x16x8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x16x8x128.size a ≤ S64x32x8x2048.size a
  hwx0_1 : ∀ i : grid0.Coords, EltTy.bits .f32 = 32 ∨ (Rect.block (s := S64x32x8x2048) S64x16x8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x16x128.size a ≤ S64x32x2048.size a
  hwx0_2 : ∀ i : grid0.Coords, EltTy.bits .f32 = 32 ∨ (Rect.block (s := S64x32x2048) S64x16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x16x128.size a ≤ S64x32x2048.size a
  hwx0_3 : ∀ i : grid0.Coords, EltTy.bits .f32 = 32 ∨ (Rect.block (s := S64x32x2048) S64x16x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x2048.size a
  hwx0_4 : ∀ i : grid0.Coords, EltTy.bits .f32 = 32 ∨ (Rect.block (s := S64x2048) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x2048.size a
  hwx0_5 : ∀ i : grid0.Coords, EltTy.bits .f32 = 32 ∨ (Rect.block (s := S64x2048) S64x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x2048.size a
  hwx0_6 : ∀ i : grid0.Coords, EltTy.bits .f32 = 32 ∨ (Rect.block (s := S1x2048) S1x128.size (cc0_transform_6 i) (hinb0_6 i)).WholeWords (EltTy.packing .f32)

variable [Facts₀]

abbrev win0_0 : Pipeline.Window sig grid0 :=
  Pipeline.Window.ofSpec (Memref.whole main_arg0) S64x16x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x16x8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x16x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x16x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S64x32x8x2048 : Shape := ⟨4, ![64, 32, 8, 2048]⟩
abbrev S64x32x2048 : Shape := ⟨3, ![64, 32, 2048]⟩
abbrev S64x2048 : Shape := ⟨2, ![64, 2048]⟩
abbrev S2048x64 : Shape := ⟨2, ![2048, 64]⟩
abbrev S_ : Shape := ⟨0, ![]⟩
abbrev S64x1x2048 : Shape := ⟨3, ![64, 1, 2048]⟩
abbrev S2048 : Shape := ⟨1, ![2048]⟩

abbrev nBuf : Space → Nat
  | .hbm => 41
  | .vmem => 0
  | .smem => 0
  | _ => 0

abbrev bufTy : (tb : Table) → Fin (tcTables nBuf tb) → BufTy
  | .hbm, ⟨0, _⟩ => ⟨S64x32x8x2048, .f32⟩
  | .hbm, ⟨1, _⟩ => ⟨S64x32x8x2048, .f32⟩
  | .hbm, ⟨2, _⟩ => ⟨S64x32x2048, .f32⟩
  | .hbm, ⟨3, _⟩ => ⟨S64x32x2048, .f32⟩
  | .hbm, ⟨4, _⟩ => ⟨S64x2048, .f32⟩
  | .hbm, ⟨5, _⟩ => ⟨S2048x64, .i1⟩
  | .hbm, ⟨6, _⟩ => ⟨S64x2048, .i1⟩
  | .hbm, ⟨7, _⟩ => ⟨S64x2048, .f32⟩
  | .hbm, ⟨8, _⟩ => ⟨S_, .f32⟩
  | .hbm, ⟨9, _⟩ => ⟨S64x2048, .f32⟩
  | .hbm, ⟨10, _⟩ => ⟨S64x2048, .f32⟩
  | .hbm, ⟨11, _⟩ => ⟨S_, .f32⟩
  | .hbm, ⟨12, _⟩ => ⟨S64x32x2048, .f32⟩
  | .hbm, ⟨13, _⟩ => ⟨S_, .f32⟩
  | .hbm, ⟨14, _⟩ => ⟨S64x32x2048, .f32⟩
  | .hbm, ⟨15, _⟩ => ⟨S64x1x2048, .f32⟩
  | .hbm, ⟨16, _⟩ => ⟨S_, .f32⟩
  | .hbm, ⟨17, _⟩ => ⟨S64x2048, .f32⟩
  | .hbm, ⟨18, _⟩ => ⟨S64x2048, .f32⟩
  | .hbm, ⟨19, _⟩ => ⟨S64x1x2048, .f32⟩
  | .hbm, ⟨20, _⟩ => ⟨S64x1x2048, .f32⟩
  | .hbm, ⟨21, _⟩ => ⟨S64x32x2048, .f32⟩
  | .hbm, ⟨22, _⟩ => ⟨S64x32x2048, .f32⟩
  | .hbm, ⟨23, _⟩ => ⟨S64x32x2048, .f32⟩
  | .hbm, ⟨24, _⟩ => ⟨S64x1x2048, .f32⟩
  | .hbm, ⟨25, _⟩ => ⟨S64x1x2048, .f32⟩
  | .hbm, ⟨26, _⟩ => ⟨S64x1x2048, .f32⟩
  | .hbm, ⟨27, _⟩ => ⟨S64x32x2048, .f32⟩
  | .hbm, ⟨28, _⟩ => ⟨S64x32x2048, .f32⟩
  | .hbm, ⟨29, _⟩ => ⟨S64x32x2048, .f32⟩
  | .hbm, ⟨30, _⟩ => ⟨S_, .f32⟩
  | .hbm, ⟨31, _⟩ => ⟨S64x2048, .f32⟩
  | .hbm, ⟨32, _⟩ => ⟨S_, .f32⟩
  | .hbm, ⟨33, _⟩ => ⟨S64x2048, .f32⟩
  | .hbm, ⟨34, _⟩ => ⟨S64x2048, .f32⟩
  | .hbm, ⟨35, _⟩ => ⟨S_, .f32⟩
  | .hbm, ⟨36, _⟩ => ⟨S2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S64x32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩

abbrev nD : Nat := 1
abbrev τ : Topo := Topo.v7x

variable {F : FTy → Type} [FloatOps F]

class Facts₀ : Prop where
  transposes_S2048x64_S64x2048_1_0 : S2048x64.Transposes [1, 0] S64x2048
  bcast_S_S64x2048 : S_.BroadcastsInDim S64x2048 (![] : Fin 0 → Fin S64x2048.rank)
  reducesTo_S64x32x8x2048_S64x32x2048_d2 : S64x32x8x2048.ReducesTo [2] S64x32x2048
  h_S_ : 0 < S_.numel
  bcast_S64x2048_S64x1x2048_0_2 : S64x2048.BroadcastsInDim S64x1x2048 (![0, 2] : Fin 2 → Fin S64x1x2048.rank)
  bcast_S64x1x2048_S64x32x2048_0_1_2 : S64x1x2048.BroadcastsInDim S64x32x2048 (![0, 1, 2] : Fin 3 → Fin S64x32x2048.rank)
  reducesTo_S64x32x2048_S64x2048_d1 : S64x32x2048.ReducesTo [1] S64x2048
  reducesTo_S64x2048_S2048_d0 : S64x2048.ReducesTo [0] S2048
  reducesTo_S2048_S_d0 : S2048.ReducesTo [0] S_

variable [Facts₀]

class Facts : Prop extends Facts₀ where

variable [Facts]
-- ==== Proof.BodyValue.lean ====
/-
  What one run of the kernel body leaves behind, as values of what it loaded.

  At a point with house-chunk 0 the body resets the two scratch accumulators to +∞ and -∞, folds the chunk's 16 houses
  and leaves   min(+∞-block, chunkMin)   and   max(-∞-block, chunkMax).
  At a point with house-chunk 1 it folds over what the previous point left:  min(prev, chunkMin), max(prev, chunkMax),
  and writes the output block: the sum over the 64 towns of (running min + running max).
  Each is the payload of the last store covering the buffer, its loads read as the whole buffers they load.
-/
import proofs.«130797_j16484084483043_1_alg».proof.Proof.Gen.KernelIdeal.Frame
import Idealize.ShloMosaic.Lib.Pipeline.Value
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.BodyValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The chunk's minimum over its 16 houses, from the blocks the body loads (x0 inner windows, x2 outer frame,
    x4 containment, x5 belongs). -/
abbrev chunkMin (x0 : Vec F S64x16x8x128 .f32) (x2 : Vec F S64x16x128 .f32) (x4 x5 : Vec F S64x128 .f32) : Vec F S64x128 .f32 :=
  k0_pay7 x0 x5 x4 x2
/-- The chunk's maximum over its 16 houses (x1 outer windows, x3 inner frame). -/
abbrev chunkMax (x1 : Vec F S64x16x8x128 .f32) (x3 : Vec F S64x16x128 .f32) (x4 x5 : Vec F S64x128 .f32) : Vec F S64x128 .f32 :=
  k0_pay8 x1 x5 x4 x3

/-- House-chunk 0: the min accumulator ends at min(+∞-block, chunkMin). -/
theorem minAcc_first (c : Dev nD) (i : grid0.Coords) (arg2 : Memref sig .tc .vmem S64x16x8x128 .f32) (harg2 : arg2.IsWhole) (arg3 : Memref sig .tc .vmem S64x16x8x128 .f32) (harg3 : arg3.IsWhole) (arg4 : Memref sig .tc .vmem S64x16x128 .f32) (harg4 : arg4.IsWhole) (arg5 : Memref sig .tc .vmem S64x16x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S64x128 .f32) (harg9 : arg9.IsWhole) (arg10 : Memref sig .tc .vmem S64x128 .f32) (harg10 : arg10.IsWhole) (hc0 : cond0_0 i) (hc1 : ¬cond0_1 i) (x0 : Vec F S64x16x8x128 .f32) (x1 : Vec F S64x16x8x128 .f32) (x2 : Vec F S64x16x128 .f32) (x3 : Vec F S64x16x128 .f32) (x4 : Vec F S64x128 .f32) (x5 : Vec F S64x128 .f32) :
    sout0_A_0 c i arg2 harg2 arg3 harg3 arg4 harg4 arg5 harg5 arg6 harg6 arg7 harg7 arg8 harg8 arg9 harg9 arg10 harg10 hc0 hc1 x0 x1 x2 x3 x4 x5 = k0_pay1 (chunkMin x0 x2 x4 x5) (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S64x128) hz2, View.readCov_unit_zero (S := S64x128) _ hz2]
  simp only [View.readAt_eq_ld, harg2.read_unread, harg3.read_unread, harg4.read_unread, harg5.read_unread, harg6.read_unread, harg7.read_unread, harg9.read_unread, harg10.read_unread, View.ld_unit_zero (S := S64x16x8x128) hz4, View.ld_unit_zero (S := S64x16x128) hz3, View.ld_unit_zero (S := S64x128) hz2]

/-- House-chunk 0: the max accumulator ends at max(-∞-block, chunkMax). -/
theorem maxAcc_first (c : Dev nD) (i : grid0.Coords) (arg2 : Memref sig .tc .vmem S64x16x8x128 .f32) (harg2 : arg2.IsWhole) (arg3 : Memref sig .tc .vmem S64x16x8x128 .f32) (harg3 : arg3.IsWhole) (arg4 : Memref sig .tc .vmem S64x16x128 .f32) (harg4 : arg4.IsWhole) (arg5 : Memref sig .tc .vmem S64x16x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S64x128 .f32) (harg9 : arg9.IsWhole) (arg10 : Memref sig .tc .vmem S64x128 .f32) (harg10 : arg10.IsWhole) (hc0 : cond0_0 i) (hc1 : ¬cond0_1 i) (x0 : Vec F S64x16x8x128 .f32) (x1 : Vec F S64x16x8x128 .f32) (x2 : Vec F S64x16x128 .f32) (x3 : Vec F S64x16x128 .f32) (x4 : Vec F S64x128 .f32) (x5 : Vec F S64x128 .f32) :
    sout0_A_1 c i arg2 harg2 arg3 harg3 arg4 harg4 arg5 harg5 arg6 harg6 arg7 harg7 arg8 harg8 arg9 harg9 arg10 harg10 hc0 hc1 x0 x1 x2 x3 x4 x5 = k0_pay2 (chunkMax x1 x3 x4 x5) (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S64x128) hz2, View.readCov_unit_zero (S := S64x128) _ hz2]
  simp only [View.readAt_eq_ld, harg2.read_unread, harg3.read_unread, harg4.read_unread, harg5.read_unread, harg6.read_unread, harg7.read_unread, harg9.read_unread, harg10.read_unread, View.ld_unit_zero (S := S64x16x8x128) hz4, View.ld_unit_zero (S := S64x16x128) hz3, View.ld_unit_zero (S := S64x128) hz2]

/-- House-chunk 1: the min accumulator ends at min(what it held, chunkMin). -/
theorem minAcc_next (c : Dev nD) (i : grid0.Coords) (arg2 : Memref sig .tc .vmem S64x16x8x128 .f32) (harg2 : arg2.IsWhole) (arg3 : Memref sig .tc .vmem S64x16x8x128 .f32) (harg3 : arg3.IsWhole) (arg4 : Memref sig .tc .vmem S64x16x128 .f32) (harg4 : arg4.IsWhole) (arg5 : Memref sig .tc .vmem S64x16x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S64x128 .f32) (harg9 : arg9.IsWhole) (arg10 : Memref sig .tc .vmem S64x128 .f32) (harg10 : arg10.IsWhole) (hc0 : ¬cond0_0 i) (hc1 : cond0_1 i) (x0 : Vec F S64x16x8x128 .f32) (x1 : Vec F S64x16x8x128 .f32) (x2 : Vec F S64x16x128 .f32) (x3 : Vec F S64x16x128 .f32) (x4 : Vec F S64x128 .f32) (x5 : Vec F S64x128 .f32) (xs0 xs1 : Vec F S64x128 .f32) :
    sout0_B_0 c i arg2 harg2 arg3 harg3 arg4 harg4 arg5 harg5 arg6 harg6 arg7 harg7 arg8 harg8 arg9 harg9 arg10 harg10 hc0 hc1 x0 x1 x2 x3 x4 x5 xs0 xs1 = k0_pay1 (chunkMin x0 x2 x4 x5) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero (S := S64x128) hz2]
  simp only [View.readAt_eq_ld, harg2.read_unread, harg3.read_unread, harg4.read_unread, harg5.read_unread, harg6.read_unread, harg7.read_unread, harg9.read_unread, harg10.read_unread, View.ld_unit_zero (S := S64x16x8x128) hz4, View.ld_unit_zero (S := S64x16x128) hz3, View.ld_unit_zero (S := S64x128) hz2]

/-- House-chunk 1: the max accumulator ends at max(what it held, chunkMax). -/
theorem maxAcc_next (c : Dev nD) (i : grid0.Coords) (arg2 : Memref sig .tc .vmem S64x16x8x128 .f32) (harg2 : arg2.IsWhole) (arg3 : Memref sig .tc .vmem S64x16x8x128 .f32) (harg3 : arg3.IsWhole) (arg4 : Memref sig .tc .vmem S64x16x128 .f32) (harg4 : arg4.IsWhole) (arg5 : Memref sig .tc .vmem S64x16x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S64x128 .f32) (harg9 : arg9.IsWhole) (arg10 : Memref sig .tc .vmem S64x128 .f32) (harg10 : arg10.IsWhole) (hc0 : ¬cond0_0 i) (hc1 : cond0_1 i) (x0 : Vec F S64x16x8x128 .f32) (x1 : Vec F S64x16x8x128 .f32) (x2 : Vec F S64x16x128 .f32) (x3 : Vec F S64x16x128 .f32) (x4 : Vec F S64x128 .f32) (x5 : Vec F S64x128 .f32) (xs0 xs1 : Vec F S64x128 .f32) :
    sout0_B_1 c i arg2 harg2 arg3 harg3 arg4 harg4 arg5 harg5 arg6 harg6 arg7 harg7 arg8 harg8 arg9 harg9 arg10 harg10 hc0 hc1 x0 x1 x2 x3 x4 x5 xs0 xs1 = k0_pay2 (chunkMax x1 x3 x4 x5) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero (S := S64x128) hz2]
  simp only [View.readAt_eq_ld, harg2.read_unread, harg3.read_unread, harg4.read_unread, harg5.read_unread, harg6.read_unread, harg7.read_unread, harg9.read_unread, harg10.read_unread, View.ld_unit_zero (S := S64x16x8x128) hz4, View.ld_unit_zero (S := S64x16x128) hz3, View.ld_unit_zero (S := S64x128) hz2]

/-- House-chunk 1: the output block is the town-sum of (running min + running max) as just stored. -/
theorem outBlock (c : Dev nD) (i : grid0.Coords) (arg2 : Memref sig .tc .vmem S64x16x8x128 .f32) (harg2 : arg2.IsWhole) (arg3 : Memref sig .tc .vmem S64x16x8x128 .f32) (harg3 : arg3.IsWhole) (arg4 : Memref sig .tc .vmem S64x16x128 .f32) (harg4 : arg4.IsWhole) (arg5 : Memref sig .tc .vmem S64x16x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S64x128 .f32) (harg9 : arg9.IsWhole) (arg10 : Memref sig .tc .vmem S64x128 .f32) (harg10 : arg10.IsWhole) (hc0 : ¬cond0_0 i) (hc1 : cond0_1 i) (x0 : Vec F S64x16x8x128 .f32) (x1 : Vec F S64x16x8x128 .f32) (x2 : Vec F S64x16x128 .f32) (x3 : Vec F S64x16x128 .f32) (x4 : Vec F S64x128 .f32) (x5 : Vec F S64x128 .f32) (xs0 xs1 : Vec F S64x128 .f32) :
    out0_B_6 c i arg2 harg2 arg3 harg3 arg4 harg4 arg5 harg5 arg6 harg6 arg7 harg7 arg8 harg8 arg9 harg9 arg10 harg10 hc0 hc1 x0 x1 x2 x3 x4 x5 xs0 xs1
      = k0_pay3 (k0_pay1 (chunkMin x0 x2 x4 x5) xs0) (k0_pay2 (chunkMax x1 x3 x4 x5) xs1) := by
  unfold out0_B_6
  rw [View.read_writes_eq_canon _ _ _ (cover0_B_6 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero (S := S1x128) hz2]
  simp only [View.readCov_unit_zero (S := S64x128) _ hz2, View.readAt_eq_ld, harg2.read_unread, harg3.read_unread, harg4.read_unread, harg5.read_unread, harg6.read_unread, harg7.read_unread, harg9.read_unread, harg10.read_unread, View.ld_unit_zero (S := S64x16x8x128) hz4, View.ld_unit_zero (S := S64x16x128) hz3, View.ld_unit_zero (S := S64x128) hz2]

end Cert.KernelIdeal.BodyValue

end
-- ==== Proof.Spec.lean ====
/-
  The mathematics both programs compute, stated once over the extended reals.

  For a town t, a house h and a batch entry b,
    bl  t h b = (belongs t b * (1 - contained t b)) * (outer_frame t h b + Σ_w inner_window t h w b)
    nbl t h b = ((1 - belongs t b) * contained t b) * (inner_frame t h b + Σ_w outer_window t h w b),
  a town's loss is  min_h bl t h b + max_h nbl t h b  (the minimum taken from +∞, the maximum from -∞, over all
  32 houses), and the loss of a batch entry is the sum of its 64 towns' losses.

  The one law the two programs differ by: a minimum (maximum) over the 32 houses is the minimum (maximum) of the
  minima (maxima) over houses 0..15 and 16..31, also when each partial fold restarts from the fold's initial value.
  It holds in every linear order; no finiteness is used.
-/
import Idealize.ShloMosaic.PureOps.Ideal
import Idealize.ShloMosaic.PureOps.Ideal.Laws
import Idealize.ShloMosaic.Lib.ValueIdx
import Mathlib.Data.Finset.Fold

noncomputable section

open scoped BigOperators

namespace Cert.TownLoss

open Idealize.ShloMosaic Idealize.ShloMosaic.ValueIdx

/-! ## Folding a minimum or a maximum over the houses in two halves -/

/-- The minimum over 32 values from `b` is the minimum of: `b` met with the minimum of the first 16 from `b`,
    and the minimum of the last 16 from `b`. (c lies below either side iff it lies below `b` and every value.) -/
theorem fold_min_halves (b : EReal) (f : Fin 32 → EReal) :
    (Finset.univ : Finset (Fin 32)).fold min b f
      = min (min b ((Finset.univ : Finset (Fin 16)).fold min b fun k => f ⟨k.val, by have := k.isLt; omega⟩))
          ((Finset.univ : Finset (Fin 16)).fold min b fun k => f ⟨16 + k.val, by have := k.isLt; omega⟩) := by
  refine eq_of_forall_le_iff fun c => ?_
  simp only [Finset.le_fold_min, le_min_iff, Finset.mem_univ, forall_true_left]
  constructor
  · rintro ⟨hb, h⟩
    exact ⟨⟨hb, hb, fun k => h _⟩, hb, fun k => h _⟩
  · rintro ⟨⟨hb, -, h1⟩, -, h2⟩
    refine ⟨hb, fun x => ?_⟩
    by_cases hx : x.val < 16
    · exact h1 ⟨x.val, hx⟩
    · have hx' : x.val - 16 < 16 := by have := x.isLt; omega
      have e : (⟨16 + (x.val - 16), by omega⟩ : Fin 32) = x := Fin.ext (by show 16 + (x.val - 16) = x.val; omega)
      have h := h2 ⟨x.val - 16, hx'⟩
      rw [e] at h
      exact h

/-- The same for the maximum. -/
theorem fold_max_halves (b : EReal) (f : Fin 32 → EReal) :
    (Finset.univ : Finset (Fin 32)).fold max b f
      = max (max b ((Finset.univ : Finset (Fin 16)).fold max b fun k => f ⟨k.val, by have := k.isLt; omega⟩))
          ((Finset.univ : Finset (Fin 16)).fold max b fun k => f ⟨16 + k.val, by have := k.isLt; omega⟩) := by
  refine eq_of_forall_ge_iff fun c => ?_
  simp only [Finset.fold_max_le, max_le_iff, Finset.mem_univ, forall_true_left]
  constructor
  · rintro ⟨hb, h⟩
    exact ⟨⟨hb, hb, fun k => h _⟩, hb, fun k => h _⟩
  · rintro ⟨⟨hb, -, h1⟩, -, h2⟩
    refine ⟨hb, fun x => ?_⟩
    by_cases hx : x.val < 16
    · exact h1 ⟨x.val, hx⟩
    · have hx' : x.val - 16 < 16 := by have := x.isLt; omega
      have e : (⟨16 + (x.val - 16), by omega⟩ : Fin 32) = x := Fin.ext (by show 16 + (x.val - 16) = x.val; omega)
      have h := h2 ⟨x.val - 16, hx'⟩
      rw [e] at h
      exact h

/-! ## The loss, index by index -/

/-- The words the two programs share: 1.0, +∞ and -∞ in f32. They are never evaluated. -/
abbrev one : EReal := Ideal.ofBits .f32 0x3F800000#32
abbrev posInf : EReal := Ideal.ofBits .f32 0x7F800000#32
abbrev negInf : EReal := Ideal.ofBits .f32 0xFF800000#32

abbrev A2 : Type := (⟨2, ![64, 2048]⟩ : Shape).Idx → EReal
abbrev A3 : Type := (⟨3, ![64, 32, 2048]⟩ : Shape).Idx → EReal
abbrev A4 : Type := (⟨4, ![64, 32, 8, 2048]⟩ : Shape).Idx → EReal

/-- A house that belongs to the town and is not contained: its outer frame distance plus its inner window distances. -/
def bl (bel cont : A2) (ofd : A3) (iw : A4) (t : Fin 64) (h : Fin 32) (b : Fin 2048) : EReal :=
  (bel (ix2 t b) * (one - cont (ix2 t b))) * (ofd (ix3 t h b) + ∑ w : Fin 8, iw (ix4 t h w b))

/-- A house that does not belong and is contained: its inner frame distance plus its outer window distances. -/
def nbl (bel cont : A2) (ifd : A3) (ow : A4) (t : Fin 64) (h : Fin 32) (b : Fin 2048) : EReal :=
  ((one - bel (ix2 t b)) * cont (ix2 t b)) * (ifd (ix3 t h b) + ∑ w : Fin 8, ow (ix4 t h w b))

/-- A town's loss at a batch entry: the least `bl` plus the greatest `nbl` over its 32 houses. -/
def town (iw ow : A4) (ofd ifd : A3) (cont bel : A2) (t : Fin 64) (b : Fin 2048) : EReal :=
  (Finset.univ : Finset (Fin 32)).fold min posInf (fun h => bl bel cont ofd iw t h b)
    + (Finset.univ : Finset (Fin 32)).fold max negInf (fun h => nbl bel cont ifd ow t h b)

/-- A batch entry's loss: the sum of its towns' losses. -/
def perBatch (iw ow : A4) (ofd ifd : A3) (cont bel : A2) (b : Fin 2048) : EReal :=
  ∑ t : Fin 64, town iw ow ofd ifd cont bel t b

end Cert.TownLoss

end
-- ==== Proof.ChunkValue.lean ====
/-
  The body's arithmetic read at an index, over the extended reals.

  For a block of 16 houses, at town t and lane b:
    chunkMin = the minimum, from +∞, over the 16 houses h of (bel(t,b) * (1 - cont(t,b))) * (ofd(t,h,b) + Σ_w iw(t,h,w,b)),
    chunkMax = the maximum, from -∞, of ((1 - bel(t,b)) * cont(t,b)) * (ifd(t,h,b) + Σ_w ow(t,h,w,b)),
  the accumulator updates are min / max with what was held, the resets are the words +∞ / -∞ everywhere, and the
  output block at lane b is the sum over the 64 towns of (min accumulator + max accumulator).
-/
import proofs.«130797_j16484084483043_1_alg».proof.Proof.Gen.KernelIdeal.Skeleton
import proofs.«130797_j16484084483043_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat)

namespace Cert.KernelIdeal.ChunkValue

open Cert.KernelIdeal Cert.KernelIdeal.Gen

open Idealize.ShloMosaic.ValueIdx Cert.TownLoss

/-- A [64,128] vector viewed as [64,1,128] and repeated over the 16 houses reads (t, b) at (t, h, b). -/
theorem repeat_houses {α : Type} (u : S64x128.Idx → α) (t : Fin 64) (h : Fin 16) (b : Fin 128) :
    broadcastTo S64x16x128 (shapeCast S64x1x128 u Gen.shapeCasts_S64x128_S64x1x128) Gen.broadcasts_S64x1x128_S64x16x128 (ix3 t h b)
      = u (ix2 t b) := by
  rw [broadcastTo_apply _ Gen.broadcasts_S64x1x128_S64x16x128 (ix3 t h b) (ix3 t (0 : Fin 1) b) (fun a => by
      match a with
      | ⟨0, _⟩ => show t.val = if (64 : Nat) = 1 then 0 else t.val; rw [if_neg (by decide)]
      | ⟨1, _⟩ => show 0 = if (1 : Nat) = 1 then 0 else _; rw [if_pos rfl]
      | ⟨2, _⟩ => show b.val = if (128 : Nat) = 1 then 0 else b.val; rw [if_neg (by decide)])]
  exact shapeCast_apply u Gen.shapeCasts_S64x128_S64x1x128 (ix3 t 0 b) (ix2 t b) (by
    rw [Shape.rowMajor_val_two, Shape.rowMajor_val_three]
    show t.val * 128 + b.val = (t.val * 1 + 0) * 128 + b.val
    omega)

/-- House h inserted into (t, b) is (t, h, b). -/
theorem lift_house (t : Fin 64) (h : Fin 16) (b : Fin 128) :
    Gen.reduces_S64x16x128_S64x128.lift (ix2 t b) h = ix3 t h b :=
  funext fun a => Fin.ext (by match a with | ⟨0, _⟩ => rfl | ⟨1, _⟩ => rfl | ⟨2, _⟩ => rfl)

/-- Window w inserted into (t, h, b) is (t, h, w, b). -/
theorem lift_window (t : Fin 64) (h : Fin 16) (w : Fin 8) (b : Fin 128) :
    Gen.reduces_S64x16x8x128_S64x16x128.lift (ix3 t h b) w = ix4 t h w b :=
  funext fun a => Fin.ext (by match a with | ⟨0, _⟩ => rfl | ⟨1, _⟩ => rfl | ⟨2, _⟩ => rfl | ⟨3, _⟩ => rfl)

/-- Town t inserted into lane b is (t, b). -/
theorem lift_town (t : Fin 64) (b : Fin 128) :
    Gen.reduces_S64x128_S128.lift (ix1 b) t = ix2 t b :=
  funext fun a => Fin.ext (by match a with | ⟨0, _⟩ => rfl | ⟨1, _⟩ => rfl)

/-- The sum over the 8 windows at (t, h, b) (the reduction's side proofs as the body prints them). -/
theorem windowSum_at (x : Vec Ideal S64x16x8x128 .f32) (hφ : FKind.Formats .f32)
    (hacc : (0x00000000#32 : BitVec 32) = 0x00000000#32) (t : Fin 64) (h : Fin 16) (b : Fin 128) :
    multiReduction (F := Ideal) .add [2] S64x16x128 x 0x00000000#32 Gen.reduces_S64x16x8x128_S64x16x128 hφ hacc (ix3 t h b)
      = ∑ w : Fin 8, x (ix4 t h w b) :=
  (Ideal.multiReduction_add_single x 0x00000000#32 Gen.reduces_S64x16x8x128_S64x16x128 hφ hacc (ix3 t h b)).trans
    (Finset.sum_congr rfl fun w _ => congrArg x (lift_window t h w b))

/-- A per-(town, lane) factor repeated over the houses, times a per-house term, at (t, h, b). -/
theorem scaled_at (u v : FVec Ideal S64x128 .f32) (y s : FVec Ideal S64x16x128 .f32) (t : Fin 64) (h : Fin 16) (b : Fin 128) :
    mulf (F := Ideal) (φ := .f32) (broadcastTo S64x16x128 (mulf (F := Ideal) (φ := .f32) (shapeCast S64x1x128 u Gen.shapeCasts_S64x128_S64x1x128)
        (shapeCast S64x1x128 v Gen.shapeCasts_S64x128_S64x1x128)) Gen.broadcasts_S64x1x128_S64x16x128) (addf (F := Ideal) (φ := .f32) y s) (ix3 t h b)
      = (u (ix2 t b) * v (ix2 t b)) * (y (ix3 t h b) + s (ix3 t h b)) := by
  have e : mulf (F := Ideal) (φ := .f32) (shapeCast S64x1x128 u Gen.shapeCasts_S64x128_S64x1x128) (shapeCast S64x1x128 v Gen.shapeCasts_S64x128_S64x1x128)
      = shapeCast S64x1x128 (mulf (F := Ideal) (φ := .f32) u v) Gen.shapeCasts_S64x128_S64x1x128 := rfl
  rw [mulf_apply, addf_apply, e, repeat_houses, mulf_apply]

theorem chunkMin_at (x0 : Vec Ideal S64x16x8x128 .f32) (x2 : Vec Ideal S64x16x128 .f32) (x4 x5 : Vec Ideal S64x128 .f32)
    (t : Fin 64) (b : Fin 128) :
    k0_pay7 (F := Ideal) x0 x5 x4 x2 (ix2 t b)
      = (Finset.univ : Finset (Fin 16)).fold min posInf
          (fun h => (x5 (ix2 t b) * (one - x4 (ix2 t b))) * (x2 (ix3 t h b) + ∑ w : Fin 8, x0 (ix4 t h w b))) := by
  unfold k0_pay7 k0_pay6
  dsimp only
  refine (multiReduction_minimumf_eq_fold _ _ Gen.reduces_S64x16x128_S64x128 _ _ (ix2 t b)).trans ?_
  refine (Gen.reduces_S64x16x128_S64x128.fold_filter_drop_single _ _ _ (ix2 t b)).trans ?_
  refine Finset.fold_congr (fun (h : Fin 16) _ => ?_)
  refine ((congrArg _ (lift_house t h b)).trans (scaled_at _ _ x2 _ t h b)).trans ?_
  exact congrArg₂ (· * ·) (congrArg₂ (· * ·) (congrFun (shapeCast_self x5 _) _) rfl)
    (congrArg (x2 (ix3 t h b) + ·) (windowSum_at x0 _ _ t h b))

theorem chunkMax_at (x1 : Vec Ideal S64x16x8x128 .f32) (x3 : Vec Ideal S64x16x128 .f32) (x4 x5 : Vec Ideal S64x128 .f32)
    (t : Fin 64) (b : Fin 128) :
    k0_pay8 (F := Ideal) x1 x5 x4 x3 (ix2 t b)
      = (Finset.univ : Finset (Fin 16)).fold max negInf
          (fun h => ((one - x5 (ix2 t b)) * x4 (ix2 t b)) * (x3 (ix3 t h b) + ∑ w : Fin 8, x1 (ix4 t h w b))) := by
  unfold k0_pay8 k0_pay6
  dsimp only
  refine (multiReduction_maximumf_eq_fold _ _ Gen.reduces_S64x16x128_S64x128 _ _ (ix2 t b)).trans ?_
  refine (Gen.reduces_S64x16x128_S64x128.fold_filter_drop_single _ _ _ (ix2 t b)).trans ?_
  refine Finset.fold_congr (fun (h : Fin 16) _ => ?_)
  refine ((congrArg _ (lift_house t h b)).trans (scaled_at _ _ x3 _ t h b)).trans ?_
  exact congrArg₂ (· * ·) (congrArg₂ (· * ·) (congrArg (one - ·) (congrFun (shapeCast_self x5 _) _)) rfl)
    (congrArg (x3 (ix3 t h b) + ·) (windowSum_at x1 _ _ t h b))

/-- The min accumulator's update, at an index. -/
theorem minUpdate_at (v28 v30 : Vec Ideal S64x128 .f32) (i : S64x128.Idx) :
    k0_pay1 (F := Ideal) v28 v30 i = min (v30 i) (v28 i) := by
  unfold k0_pay1
  exact congrFun (shapeCast_self (minimumf (F := Ideal) (φ := .f32) v30 v28) _) i

/-- The max accumulator's update, at an index. -/
theorem maxUpdate_at (v29 v35 : Vec Ideal S64x128 .f32) (i : S64x128.Idx) :
    k0_pay2 (F := Ideal) v29 v35 i = max (v35 i) (v29 i) := by
  unfold k0_pay2
  exact congrFun (shapeCast_self (maximumf (F := Ideal) (φ := .f32) v35 v29) _) i

/-- The min accumulator's reset is +∞ everywhere. -/
theorem minReset_at (i : S64x128.Idx) : k0_pay4 (F := Ideal) i = posInf := by
  unfold k0_pay4
  exact congrFun (shapeCast_self (broadcast S64x128 (Scalar.ofBits (F := Ideal) .f32 0x7F800000#32)) _) i

/-- The max accumulator's reset is -∞ everywhere. -/
theorem maxReset_at (i : S64x128.Idx) : k0_pay5 (F := Ideal) i = negInf := by
  unfold k0_pay5
  exact congrFun (shapeCast_self (broadcast S64x128 (Scalar.ofBits (F := Ideal) .f32 0xFF800000#32)) _) i

/-- The output block at lane b: the sum over the towns of the two accumulators. -/
theorem townSum_at (v43 v44 : Vec Ideal S64x128 .f32) (b : Fin 128) :
    k0_pay3 (F := Ideal) v43 v44 (ix2 (0 : Fin 1) b) = ∑ t : Fin 64, (v43 (ix2 t b) + v44 (ix2 t b)) := by
  unfold k0_pay3
  dsimp only
  refine (shapeCast_apply _ Gen.shapeCasts_S128_S1x128 (ix2 (0 : Fin 1) b) (ix1 b) (by
    rw [Shape.rowMajor_val_one, Shape.rowMajor_val_two]
    show b.val = 0 * 128 + b.val
    omega)).trans ?_
  refine (Ideal.multiReduction_add_single _ _ Gen.reduces_S64x128_S128 _ _ (ix1 b)).trans ?_
  exact Finset.sum_congr rfl fun t _ => congrArg (addf (F := Ideal) (φ := .f32) v43 v44) (lift_town t b)

end Cert.KernelIdeal.ChunkValue

end
-- ==== Proof.GridValue.lean ====
/-
  The kernel's output array after the whole grid.

  The grid is 16 batch tiles × 2 house chunks; point t has batch tile t / 2 and house chunk t % 2, and its input
  blocks are the arrays' entries at houses 16·(t % 2) + h and batch entries 128·(t / 2) + b. The even point of a
  tile resets and folds houses 0..15; the odd point folds houses 16..31 on top and writes the tile's block of the
  output: at lane b the sum over the towns of
      min(min(+∞, min over houses 0..15), min over houses 16..31) + max(max(-∞, max over 0..15), max over 16..31),
  which is the per-batch loss of entry 128·(t / 2) + b. The 16 odd points' blocks tile the [1, 2048] output.
-/
import proofs.«130797_j16484084483043_1_alg».proof.Proof.Gen.KernelIdeal.Frame
import proofs.«130797_j16484084483043_1_alg».proof.Proof.BodyValue
import proofs.«130797_j16484084483043_1_alg».proof.Proof.ChunkValue
import proofs.«130797_j16484084483043_1_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem
open Idealize.ShloMosaic.Pipeline (Dat)

namespace Cert.KernelIdeal.GridValue

open Cert.KernelIdeal Cert.KernelIdeal.Gen

open Cert.KernelIdeal.BodyValue Cert.KernelIdeal.ChunkValue Idealize.ShloMosaic.ValueIdx Cert.TownLoss

variable (m : (ℓ : Loc nD τ sig) → Buf (Elt Ideal) ℓ) (ρ : Dev nD → PrngReg)

/-! ## The blocks and the arrays, at their literal types -/

abbrev iwBlk (c : Dev nD) (t : Fin cfg0.N) : Vec Ideal S64x16x8x128 .f32 := iblk m c 0 t
abbrev owBlk (c : Dev nD) (t : Fin cfg0.N) : Vec Ideal S64x16x8x128 .f32 := iblk m c 1 t
abbrev ofdBlk (c : Dev nD) (t : Fin cfg0.N) : Vec Ideal S64x16x128 .f32 := iblk m c 2 t
abbrev ifdBlk (c : Dev nD) (t : Fin cfg0.N) : Vec Ideal S64x16x128 .f32 := iblk m c 3 t
abbrev contBlk (c : Dev nD) (t : Fin cfg0.N) : Vec Ideal S64x128 .f32 := iblk m c 4 t
abbrev belBlk (c : Dev nD) (t : Fin cfg0.N) : Vec Ideal S64x128 .f32 := iblk m c 5 t

abbrev iwArr (c : Dev nD) : Vec Ideal S64x32x8x2048 .f32 := V m c main_arg0
abbrev owArr (c : Dev nD) : Vec Ideal S64x32x8x2048 .f32 := V m c main_arg1
abbrev ofdArr (c : Dev nD) : Vec Ideal S64x32x2048 .f32 := V m c main_arg2
abbrev ifdArr (c : Dev nD) : Vec Ideal S64x32x2048 .f32 := V m c main_arg3
abbrev contArr (c : Dev nD) : Vec Ideal S64x2048 .f32 := V m c main_arg4
abbrev belArr (c : Dev nD) : Vec Ideal S64x2048 .f32 := V m c main_v1

/-! ## Where each window's block sits: house chunk t % 2, batch tile t / 2 -/

theorem idx_0 : ∀ t : Fin cfg0.N, win0_0.index t (0 : Fin 4) = 0 ∧ win0_0.index t (1 : Fin 4) = t.val % 2
    ∧ win0_0.index t (2 : Fin 4) = 0 ∧ win0_0.index t (3 : Fin 4) = t.val / 2 :=
  (by decide +kernel : ∀ t : Fin grid0.N, _)
theorem idx_1 : ∀ t : Fin cfg0.N, win0_1.index t (0 : Fin 4) = 0 ∧ win0_1.index t (1 : Fin 4) = t.val % 2
    ∧ win0_1.index t (2 : Fin 4) = 0 ∧ win0_1.index t (3 : Fin 4) = t.val / 2 :=
  (by decide +kernel : ∀ t : Fin grid0.N, _)
theorem idx_2 : ∀ t : Fin cfg0.N, win0_2.index t (0 : Fin 3) = 0 ∧ win0_2.index t (1 : Fin 3) = t.val % 2
    ∧ win0_2.index t (2 : Fin 3) = t.val / 2 :=
  (by decide +kernel : ∀ t : Fin grid0.N, _)
theorem idx_3 : ∀ t : Fin cfg0.N, win0_3.index t (0 : Fin 3) = 0 ∧ win0_3.index t (1 : Fin 3) = t.val % 2
    ∧ win0_3.index t (2 : Fin 3) = t.val / 2 :=
  (by decide +kernel : ∀ t : Fin grid0.N, _)
theorem idx_4 : ∀ t : Fin cfg0.N, win0_4.index t (0 : Fin 2) = 0 ∧ win0_4.index t (1 : Fin 2) = t.val / 2 :=
  (by decide +kernel : ∀ t : Fin grid0.N, _)
theorem idx_5 : ∀ t : Fin cfg0.N, win0_5.index t (0 : Fin 2) = 0 ∧ win0_5.index t (1 : Fin 2) = t.val / 2 :=
  (by decide +kernel : ∀ t : Fin grid0.N, _)
theorem idx_6 : ∀ t : Fin cfg0.N, win0_6.index t (0 : Fin 2) = 0 ∧ win0_6.index t (1 : Fin 2) = t.val / 2 :=
  (by decide +kernel : ∀ t : Fin grid0.N, _)

/-! ## A block's entry is the array's entry at house 16·(t % 2) + h, batch entry 128·(t / 2) + b -/

theorem iwBlk_at (c : Dev nD) (t : Fin cfg0.N) (tw : Fin 64) (h : Fin 16) (w : Fin 8) (b : Fin 128) (H : Fin 32) (B : Fin 2048)
    (hH : H.val = 16 * (t.val % 2) + h.val) (hB : B.val = 128 * (t.val / 2) + b.val) :
    iwBlk m c t (ix4 tw h w b) = iwArr m c (ix4 tw H w B) := by
  obtain ⟨e0, e1, e2, e3⟩ := idx_0 t
  show iblk m c 0 t (ix4 tw h w b) = _
  unfold iblk
  rw [View.read_apply]
  show V m c main_arg0 _ = V m c main_arg0 _
  congr 1
  funext a
  apply Fin.ext
  match a with
  | ⟨0, _⟩ => show win0_0.index t (0 : Fin 4) * 64 + 1 * tw.val = tw.val; rw [e0]; omega
  | ⟨1, _⟩ => show win0_0.index t (1 : Fin 4) * 16 + 1 * h.val = H.val; rw [e1, hH]; omega
  | ⟨2, _⟩ => show win0_0.index t (2 : Fin 4) * 8 + 1 * w.val = w.val; rw [e2]; omega
  | ⟨3, _⟩ => show win0_0.index t (3 : Fin 4) * 128 + 1 * b.val = B.val; rw [e3, hB]; omega

theorem owBlk_at (c : Dev nD) (t : Fin cfg0.N) (tw : Fin 64) (h : Fin 16) (w : Fin 8) (b : Fin 128) (H : Fin 32) (B : Fin 2048)
    (hH : H.val = 16 * (t.val % 2) + h.val) (hB : B.val = 128 * (t.val / 2) + b.val) :
    owBlk m c t (ix4 tw h w b) = owArr m c (ix4 tw H w B) := by
  obtain ⟨e0, e1, e2, e3⟩ := idx_1 t
  show iblk m c 1 t (ix4 tw h w b) = _
  unfold iblk
  rw [View.read_apply]
  show V m c main_arg1 _ = V m c main_arg1 _
  congr 1
  funext a
  apply Fin.ext
  match a with
  | ⟨0, _⟩ => show win0_1.index t (0 : Fin 4) * 64 + 1 * tw.val = tw.val; rw [e0]; omega
  | ⟨1, _⟩ => show win0_1.index t (1 : Fin 4) * 16 + 1 * h.val = H.val; rw [e1, hH]; omega
  | ⟨2, _⟩ => show win0_1.index t (2 : Fin 4) * 8 + 1 * w.val = w.val; rw [e2]; omega
  | ⟨3, _⟩ => show win0_1.index t (3 : Fin 4) * 128 + 1 * b.val = B.val; rw [e3, hB]; omega

theorem ofdBlk_at (c : Dev nD) (t : Fin cfg0.N) (tw : Fin 64) (h : Fin 16) (b : Fin 128) (H : Fin 32) (B : Fin 2048)
    (hH : H.val = 16 * (t.val % 2) + h.val) (hB : B.val = 128 * (t.val / 2) + b.val) :
    ofdBlk m c t (ix3 tw h b) = ofdArr m c (ix3 tw H B) := by
  obtain ⟨e0, e1, e2⟩ := idx_2 t
  show iblk m c 2 t (ix3 tw h b) = _
  unfold iblk
  rw [View.read_apply]
  show V m c main_arg2 _ = V m c main_arg2 _
  congr 1
  funext a
  apply Fin.ext
  match a with
  | ⟨0, _⟩ => show win0_2.index t (0 : Fin 3) * 64 + 1 * tw.val = tw.val; rw [e0]; omega
  | ⟨1, _⟩ => show win0_2.index t (1 : Fin 3) * 16 + 1 * h.val = H.val; rw [e1, hH]; omega
  | ⟨2, _⟩ => show win0_2.index t (2 : Fin 3) * 128 + 1 * b.val = B.val; rw [e2, hB]; omega

theorem ifdBlk_at (c : Dev nD) (t : Fin cfg0.N) (tw : Fin 64) (h : Fin 16) (b : Fin 128) (H : Fin 32) (B : Fin 2048)
    (hH : H.val = 16 * (t.val % 2) + h.val) (hB : B.val = 128 * (t.val / 2) + b.val) :
    ifdBlk m c t (ix3 tw h b) = ifdArr m c (ix3 tw H B) := by
  obtain ⟨e0, e1, e2⟩ := idx_3 t
  show iblk m c 3 t (ix3 tw h b) = _
  unfold iblk
  rw [View.read_apply]
  show V m c main_arg3 _ = V m c main_arg3 _
  congr 1
  funext a
  apply Fin.ext
  match a with
  | ⟨0, _⟩ => show win0_3.index t (0 : Fin 3) * 64 + 1 * tw.val = tw.val; rw [e0]; omega
  | ⟨1, _⟩ => show win0_3.index t (1 : Fin 3) * 16 + 1 * h.val = H.val; rw [e1, hH]; omega
  | ⟨2, _⟩ => show win0_3.index t (2 : Fin 3) * 128 + 1 * b.val = B.val; rw [e2, hB]; omega

theorem contBlk_at (c : Dev nD) (t : Fin cfg0.N) (tw : Fin 64) (b : Fin 128) (B : Fin 2048)
    (hB : B.val = 128 * (t.val / 2) + b.val) :
    contBlk m c t (ix2 tw b) = contArr m c (ix2 tw B) := by
  obtain ⟨e0, e1⟩ := idx_4 t
  show iblk m c 4 t (ix2 tw b) = _
  unfold iblk
  rw [View.read_apply]
  show V m c main_arg4 _ = V m c main_arg4 _
  congr 1
  funext a
  apply Fin.ext
  match a with
  | ⟨0, _⟩ => show win0_4.index t (0 : Fin 2) * 64 + 1 * tw.val = tw.val; rw [e0]; omega
  | ⟨1, _⟩ => show win0_4.index t (1 : Fin 2) * 128 + 1 * b.val = B.val; rw [e1, hB]; omega

theorem belBlk_at (c : Dev nD) (t : Fin cfg0.N) (tw : Fin 64) (b : Fin 128) (B : Fin 2048)
    (hB : B.val = 128 * (t.val / 2) + b.val) :
    belBlk m c t (ix2 tw b) = belArr m c (ix2 tw B) := by
  obtain ⟨e0, e1⟩ := idx_5 t
  show iblk m c 5 t (ix2 tw b) = _
  unfold iblk
  rw [View.read_apply]
  show V m c main_v1 _ = V m c main_v1 _
  congr 1
  funext a
  apply Fin.ext
  match a with
  | ⟨0, _⟩ => show win0_5.index t (0 : Fin 2) * 64 + 1 * tw.val = tw.val; rw [e0]; omega
  | ⟨1, _⟩ => show win0_5.index t (1 : Fin 2) * 128 + 1 * b.val = B.val; rw [e1, hB]; omega

/-! ## A point's chunk minimum and maximum, over the arrays -/

theorem chunkMin_arr (c : Dev nD) (t : Fin cfg0.N) (tw : Fin 64) (b : Fin 128) (B : Fin 2048)
    (hB : B.val = 128 * (t.val / 2) + b.val) (Hof : Fin 16 → Fin 32) (hH : ∀ k, (Hof k).val = 16 * (t.val % 2) + k.val) :
    chunkMin (iwBlk m c t) (ofdBlk m c t) (contBlk m c t) (belBlk m c t) (ix2 tw b)
      = (Finset.univ : Finset (Fin 16)).fold min posInf
          (fun k => bl (belArr m c) (contArr m c) (ofdArr m c) (iwArr m c) tw (Hof k) B) := by
  refine (chunkMin_at (iwBlk m c t) (ofdBlk m c t) (contBlk m c t) (belBlk m c t) tw b).trans ?_
  refine Finset.fold_congr (fun k _ => ?_)
  unfold bl
  rw [belBlk_at m c t tw b B hB, contBlk_at m c t tw b B hB, ofdBlk_at m c t tw k b (Hof k) B (hH k) hB,
    Finset.sum_congr rfl (fun w _ => iwBlk_at m c t tw k w b (Hof k) B (hH k) hB)]

theorem chunkMax_arr (c : Dev nD) (t : Fin cfg0.N) (tw : Fin 64) (b : Fin 128) (B : Fin 2048)
    (hB : B.val = 128 * (t.val / 2) + b.val) (Hof : Fin 16 → Fin 32) (hH : ∀ k, (Hof k).val = 16 * (t.val % 2) + k.val) :
    chunkMax (owBlk m c t) (ifdBlk m c t) (contBlk m c t) (belBlk m c t) (ix2 tw b)
      = (Finset.univ : Finset (Fin 16)).fold max negInf
          (fun k => nbl (belArr m c) (contArr m c) (ifdArr m c) (owArr m c) tw (Hof k) B) := by
  refine (chunkMax_at (owBlk m c t) (ifdBlk m c t) (contBlk m c t) (belBlk m c t) tw b).trans ?_
  refine Finset.fold_congr (fun k _ => ?_)
  unfold nbl
  rw [belBlk_at m c t tw b B hB, contBlk_at m c t tw b B hB, ifdBlk_at m c t tw k b (Hof k) B (hH k) hB,
    Finset.sum_congr rfl (fun w _ => owBlk_at m c t tw k w b (Hof k) B (hH k) hB)]

/-! ## What the accumulators and the output block hold, point by point -/

/-- After an even point: the accumulators are the reset values met with the point's chunk. -/
theorem acc_even (c : Dev nD) (t : Fin cfg0.N) (h0 : t.val % 2 = 0) :
    (outsAt0 m c t.val t.isLt).2.1
        = k0_pay1 (chunkMin (iwBlk m c t) (ofdBlk m c t) (contBlk m c t) (belBlk m c t)) (k0_pay4 (F := Ideal))
    ∧ (outsAt0 m c t.val t.isLt).2.2
        = k0_pay2 (chunkMax (owBlk m c t) (ifdBlk m c t) (contBlk m c t) (belBlk m c t)) (k0_pay5 (F := Ideal)) := by
  have h1 : ¬t.val % 2 = 1 := by omega
  rw [outsAt0_A m c t h0 h1]
  dsimp only
  exact ⟨minAcc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t),
    maxAcc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)⟩

/-- After an odd point: the output block is the town-sum over the accumulators updated from the point before. -/
theorem out_odd (c : Dev nD) (t : Fin cfg0.N) (h1 : t.val % 2 = 1) :
    (outsAt0 m c t.val t.isLt).1
      = k0_pay3
          (k0_pay1 (chunkMin (iwBlk m c t) (ofdBlk m c t) (contBlk m c t) (belBlk m c t))
            (outsAt0 m c (t.val - 1) (Nat.lt_of_le_of_lt (Nat.sub_le _ _) t.isLt)).2.1)
          (k0_pay2 (chunkMax (owBlk m c t) (ifdBlk m c t) (contBlk m c t) (belBlk m c t))
            (outsAt0 m c (t.val - 1) (Nat.lt_of_le_of_lt (Nat.sub_le _ _) t.isLt)).2.2) := by
  have h0 : ¬t.val % 2 = 0 := by omega
  rw [outsAt0_B m c t h0 h1]
  dsimp only
  exact outBlock (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t)
    (outsAt0 m c (t.val - 1) (Nat.lt_of_le_of_lt (Nat.sub_le _ _) t.isLt)).2.1
    (outsAt0 m c (t.val - 1) (Nat.lt_of_le_of_lt (Nat.sub_le _ _) t.isLt)).2.2

/-- The output block an odd point leaves, at lane b: the per-batch loss of entry 128·(t / 2) + b. -/
theorem out_at (c : Dev nD) (t : Fin cfg0.N) (h1 : t.val % 2 = 1) (b : Fin 128) (B : Fin 2048)
    (hB : B.val = 128 * (t.val / 2) + b.val) :
    (outsAt0 m c t.val t.isLt).1 (ix2 (0 : Fin 1) b)
      = perBatch (iwArr m c) (owArr m c) (ofdArr m c) (ifdArr m c) (contArr m c) (belArr m c) B := by
  have hN : t.val < 32 := lt_of_lt_of_eq t.isLt (show cfg0.N = 32 from N_0)
  have hp : (⟨t.val - 1, Nat.lt_of_le_of_lt (Nat.sub_le _ _) t.isLt⟩ : Fin cfg0.N).val % 2 = 0 := by
    show (t.val - 1) % 2 = 0; omega
  have hBp : B.val = 128 * ((⟨t.val - 1, Nat.lt_of_le_of_lt (Nat.sub_le _ _) t.isLt⟩ : Fin cfg0.N).val / 2) + b.val := by
    show B.val = 128 * ((t.val - 1) / 2) + b.val; omega
  have hlo : ∀ k : Fin 16, ((⟨k.val, by have := k.isLt; omega⟩ : Fin 32)).val
      = 16 * ((⟨t.val - 1, Nat.lt_of_le_of_lt (Nat.sub_le _ _) t.isLt⟩ : Fin cfg0.N).val % 2) + k.val := by
    intro k; show k.val = 16 * ((t.val - 1) % 2) + k.val; omega
  have hhi : ∀ k : Fin 16, ((⟨16 + k.val, by have := k.isLt; omega⟩ : Fin 32)).val = 16 * (t.val % 2) + k.val := by
    intro k; show 16 + k.val = 16 * (t.val % 2) + k.val; omega
  obtain ⟨eMin, eMax⟩ := acc_even m c ⟨t.val - 1, Nat.lt_of_le_of_lt (Nat.sub_le _ _) t.isLt⟩ hp
  rw [out_odd m c t h1, townSum_at]
  unfold perBatch
  refine Finset.sum_congr rfl (fun tw _ => ?_)
  rw [minUpdate_at, maxUpdate_at, eMin, eMax, minUpdate_at, maxUpdate_at, minReset_at, maxReset_at,
    chunkMin_arr m c t tw b B hB _ hhi, chunkMax_arr m c t tw b B hB _ hhi,
    chunkMin_arr m c ⟨t.val - 1, Nat.lt_of_le_of_lt (Nat.sub_le _ _) t.isLt⟩ tw b B hBp _ hlo,
    chunkMax_arr m c ⟨t.val - 1, Nat.lt_of_le_of_lt (Nat.sub_le _ _) t.isLt⟩ tw b B hBp _ hlo]
  unfold town
  rw [fold_min_halves, fold_max_halves]

/-! ## The output array -/

/-- The output array the run leaves: at (0, B) the per-batch loss of entry B. -/
abbrev lossRow (c : Dev nD) : S1x2048.Idx → Elt Ideal .f32 := fun i =>
  perBatch (iwArr m c) (owArr m c) (ofdArr m c) (ifdArr m c) (contArr m c) (belArr m c) (i 1)

/-- What an odd point writes back is its block of `lossRow`. -/
theorem flushed_eq (c : Dev nD) (t : Fin cfg0.N) (hf : (cfg0.win 6).flush t = true) :
    (dats m 0 c).flushed 6 t = ((cfg0.win 6).blk t).view.read (Elt Ideal) (lossRow m c) := by
  have h1 : t.val % 2 = 1 := (flush0_6 t).mp hf
  have hN : t.val < 32 := lt_of_lt_of_eq t.isLt (show cfg0.N = 32 from N_0)
  obtain ⟨e0, e1⟩ := idx_6 t
  show (cfg0.win 6).cut (grid0.coords t) ((dats m 0 c).after 6 t) = _
  rw [after0_6]
  funext j
  have hj0 : (j 0).val < 1 := (j 0).isLt
  have hj1 : (j 1).val < 128 := (j 1).isLt
  have ej : j = ix2 (0 : Fin 1) ⟨(j 1).val, hj1⟩ := funext fun a => Fin.ext (by
    match a with
    | ⟨0, _⟩ => show (j 0).val = 0; omega
    | ⟨1, _⟩ => rfl)
  rw [View.read_apply]
  show (outsAt0 m c t.val t.isLt).1 j = lossRow m c (((cfg0.win 6).blk t).view.emb j)
  rw [ej]
  refine (out_at m c t h1 ⟨(j 1).val, hj1⟩ ⟨128 * (t.val / 2) + (j 1).val, by omega⟩ rfl).trans ?_
  show perBatch _ _ _ _ _ _ _ = perBatch _ _ _ _ _ _ _
  congr 1
  apply Fin.ext
  show 128 * (t.val / 2) + (j 1).val = win0_6.index t (1 : Fin 2) * 128 + 1 * (j 1).val
  rw [e1]; omega

/-- An index of the output array is in point t's block iff each coordinate is in the block's range. -/
theorem mem_blk (t : Fin cfg0.N) (i : S1x2048.Idx) :
    i ∈ ((cfg0.win 6).blk t).view.set ↔ ∀ a : Fin 2, win0_6.index t a * S1x128.size a ≤ (i a).val
      ∧ (i a).val < win0_6.index t a * S1x128.size a + S1x128.size a := by
  show i ∈ ((View.whole main_v2).slice (win0_6.rect t)).set ↔ _
  rw [View.set_slice_whole, Rect.mem_set_unit]
  exact Iff.rfl

/-- Every entry of the output array is in the block of the odd point of its batch tile. -/
theorem covered (i : S1x2048.Idx) :
    ∃ t : Fin cfg0.N, (cfg0.win 6).flush t = true ∧ i ∈ ((cfg0.win 6).blk t).view.set := by
  have hi0 : (i 0).val < 1 := (i 0).isLt
  have hi1 : (i 1).val < 2048 := (i 1).isLt
  have hN : cfg0.N = 32 := N_0
  refine ⟨⟨2 * ((i 1).val / 128) + 1, by rw [hN]; omega⟩, (flush0_6 _).mpr (by show (2 * ((i 1).val / 128) + 1) % 2 = 1; omega), ?_⟩
  obtain ⟨e0, e1⟩ := idx_6 ⟨2 * ((i 1).val / 128) + 1, by rw [hN]; omega⟩
  rw [mem_blk]
  intro a
  match a with
  | ⟨0, _⟩ =>
    show win0_6.index _ (0 : Fin 2) * 1 ≤ (i 0).val ∧ (i 0).val < win0_6.index _ (0 : Fin 2) * 1 + 1
    rw [e0]; omega
  | ⟨1, _⟩ =>
    show win0_6.index _ (1 : Fin 2) * 128 ≤ (i 1).val ∧ (i 1).val < win0_6.index _ (1 : Fin 2) * 128 + 128
    rw [e1]
    show (2 * ((i 1).val / 128) + 1) / 2 * 128 ≤ (i 1).val ∧ (i 1).val < (2 * ((i 1).val / 128) + 1) / 2 * 128 + 128
    omega

/-- The output array after the run. -/
theorem final_out (c : Dev nD) : (dats m 0 c).arrAt 6 cfg0.N = lossRow m c :=
  (dats m 0 c).arrAt_eq_of_cover 6 (lossRow m c) (flushed_eq m c) covered

end Cert.KernelIdeal.GridValue

end
-- ==== Proof.KernelRun.lean ====
/-
  The kernel program's run, read: the scalar result is the mean over the batch of the per-batch losses, the
  arguments end unchanged.

  After the region the program reshapes the [1, 2048] output row to [2048], sums it from 0 and divides by 2048.
  The region finds `belongs` as the host computed it before the region: the transposed target converted to f32;
  the other arrays it finds as launched.
-/
import proofs.«130797_j16484084483043_1_alg».proof.Proof.Gen.KernelIdeal.Frame
import proofs.«130797_j16484084483043_1_alg».proof.Proof.GridValue
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

open scoped BigOperators
open Idealize.ShloMosaic Idealize.ShloMosaic.TcCoe Idealize.SL.Sem
open Idealize.ShloMosaic.Pipeline (Dat)

namespace Cert.KernelIdeal.RunValue

open Cert.KernelIdeal Cert.KernelIdeal.Gen

open Cert.KernelIdeal.GridValue Idealize.ShloMosaic.ValueIdx Cert.TownLoss Idealize.ShloMosaic.StableHlo

variable (m : (ℓ : Loc nD τ sig) → Buf (Elt Ideal) ℓ) (ρ : Dev nD → PrngReg)

/-- The host operations after the region, of the output row: reshape, sum from 0, divide by 2048. -/
abbrev meanOfRow (row : S1x2048.Idx → Elt Ideal .f32) : (⟨S_, .f32⟩ : BufTy).Contents (Elt Ideal) :=
  Host.divf (F := Ideal)
    (Host.reduceAdd (F := Ideal) (shapeCast S2048 row Gen.shapeCasts_S1x2048_S2048) (constant S_ .f32 0x00000000#32)
      Gen.reducesTo_S2048_S_d0 Gen.h_S_)
    (constant S_ .f32 0x45000000#32)

/-- The program's result after the host tail: the mean of the output row the region left. -/
theorem tail_eq (c : Dev nD) :
    Pipeline.afterTail₀ cfgs (dats m) 0 (V0 m) [hostOps1] c main_v5 = meanOfRow (lossRow m c) := by
  have e : Pipeline.withArrays spec0 c (V0 m c) (fun w => (dats m 0 c).arrAt w cfg0.N)
      (Proc.devRef .tc (Pipeline.arrRef spec0 6)) = lossRow m c :=
    (Pipeline.withArrays_arr spec0 launch0.win.arr_inj c (V0 m c) (fun w => (dats m 0 c).arrAt w cfg0.N) 6).trans
      (final_out m c)
  unfold Pipeline.afterTail₀
  show StableHlo.after hostOps1 _ (Proc.devRef .tc main_v5) = _
  after_results
  exact congrArg meanOfRow e

/-- `belongs` as the region finds it. -/
theorem belArr_eq (c : Dev nD) :
    belArr m c = uitofp (F := Ideal) .f32
      (transpose S64x2048 [1, 0] (m ((c : Thread nD τ).loc main_arg5)) Gen.transposes_S2048x64_S64x2048_1_0) := by
  show StableHlo.after hostOps0 (fun b => m (c, b)) (Proc.devRef .tc main_v1) = _
  after_results

/-- The result as a function of the launch contents of the arguments. -/
abbrev result (c : Dev nD) : (⟨S_, .f32⟩ : BufTy).Contents (Elt Ideal) :=
  Host.divf (F := Ideal)
    (Host.reduceAdd (F := Ideal)
      (fun i : S2048.Idx => perBatch (m ((c : Thread nD τ).loc main_arg0)) (m ((c : Thread nD τ).loc main_arg1)) (m ((c : Thread nD τ).loc main_arg2)) (m ((c : Thread nD τ).loc main_arg3)) (m ((c : Thread nD τ).loc main_arg4))
        (uitofp (F := Ideal) .f32 (transpose S64x2048 [1, 0] (m ((c : Thread nD τ).loc main_arg5)) Gen.transposes_S2048x64_S64x2048_1_0)) (i 0))
      (constant S_ .f32 0x00000000#32) Gen.reducesTo_S2048_S_d0 Gen.h_S_)
    (constant S_ .f32 0x45000000#32)

theorem meanOfRow_eq (c : Dev nD) : meanOfRow (lossRow m c) = result m c := by
  have e : shapeCast S2048 (lossRow m c) Gen.shapeCasts_S1x2048_S2048
      = fun i : S2048.Idx => perBatch (m ((c : Thread nD τ).loc main_arg0)) (m ((c : Thread nD τ).loc main_arg1)) (m ((c : Thread nD τ).loc main_arg2)) (m ((c : Thread nD τ).loc main_arg3)) (m ((c : Thread nD τ).loc main_arg4))
        (uitofp (F := Ideal) .f32 (transpose S64x2048 [1, 0] (m ((c : Thread nD τ).loc main_arg5)) Gen.transposes_S2048x64_S64x2048_1_0)) (i 0) := by
    funext i
    obtain ⟨b, rfl⟩ : ∃ b : Fin 2048, i = ix1 b := ⟨i 0, eq_ix1 i⟩
    rw [shapeCast_1a_a_apply]
    show perBatch (V m c main_arg0) (V m c main_arg1) (V m c main_arg2) (V m c main_arg3) (V m c main_arg4) (belArr m c) b = _
    rw [belArr_eq, V_main_arg0, V_main_arg1, V_main_arg2, V_main_arg3, V_main_arg4]
  show Host.divf (F := Ideal) (Host.reduceAdd (F := Ideal) (shapeCast S2048 (lossRow m c) Gen.shapeCasts_S1x2048_S2048) _ _ _) _ = _
  rw [e]

/-- The run: the result at `result`, the six arguments unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(((h c).2 main_v5 (Pipeline.mem_restRefs_of main_v5 (by decide) (by decide))).trans (tail_eq m c)).trans (meanOfRow_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.KernelIdeal.RunValue

end
-- ==== Proof.RefValue.lean ====
/-
  The reference, read at an index: for every batch entry b, the value the reference sums over the batch is
  0 + Σ_t (min_h bl t h b + max_h nbl t h b), the specification's per-batch loss.

  Every stage but the two house-axis folds is read through the generated read-at-an-index lemmas; the minimum and the
  maximum over the houses are folds of min / max from the stage's initial word over the house coordinate.
-/
import proofs.«130797_j16484084483043_1_alg».proof.Proof.Gen.ReferenceIdeal.Run
import proofs.«130797_j16484084483043_1_alg».proof.Proof.Gen.ReferenceIdeal.Read
import proofs.«130797_j16484084483043_1_alg».proof.Proof.Spec
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read
open Idealize.ShloMosaic Idealize.ShloMosaic.ValueIdx Cert.TownLoss

variable (x0 x1 : (⟨S64x32x8x2048, .f32⟩ : BufTy).Contents (Elt Ideal))
  (x2 x3 : (⟨S64x32x2048, .f32⟩ : BufTy).Contents (Elt Ideal))
  (x4 : (⟨S64x2048, .f32⟩ : BufTy).Contents (Elt Ideal))
  (x5 : (⟨S2048x64, .i1⟩ : BufTy).Contents (Elt Ideal))

/-- The house axis of [64, 32, 2048] dropped: the witness that names the inserted coordinate. -/
theorem redH : S64x32x2048.Reduces [1] S64x2048 := by decide

/-- Inserting house `k` into (t, b) gives (t, k, b). -/
theorem lift_house (t : Fin 64) (b : Fin 2048) (k : Fin 32) :
    redH.lift (ix2 t b) k = ix3 t k b := by
  funext a
  apply Fin.ext
  match a with
  | ⟨0, _⟩ => rfl
  | ⟨1, _⟩ => rfl
  | ⟨2, _⟩ => rfl

/-- The product the minimum runs over, at (t, h, b): `bl`. -/
theorem v13_at (t : Fin 64) (h : Fin 32) (b : Fin 2048) :
    val_main_v13 (F := Ideal) x0 x2 x4 x5 (ix3 t h b) = bl (val_main_v1 (F := Ideal) x5) x4 x2 x0 t h b := by
  have e1 : idx_main_v6 (idx_main_v12 (ix3 t h b)) = ix2 t b :=
    funext fun a => Fin.ext (by match a with | ⟨0, _⟩ => rfl | ⟨1, _⟩ => rfl)
  have e2 : idx_main_v9 (idx_main_v12 (ix3 t h b)) = ix2 t b :=
    funext fun a => Fin.ext (by match a with | ⟨0, _⟩ => rfl | ⟨1, _⟩ => rfl)
  have e3 : ∀ w : Fin 8, idx_main_v4 (ix3 t h b) w = ix4 t h w b := fun w =>
    funext fun a => Fin.ext (by match a with | ⟨0, _⟩ => rfl | ⟨1, _⟩ => rfl | ⟨2, _⟩ => rfl | ⟨3, _⟩ => rfl)
  rw [val_main_v13_apply, val_main_v12_apply, val_main_v10_apply, val_main_v6_apply, val_main_v9_apply,
    val_main_v8_apply, val_main_v7_apply, val_main_cst_2_apply, val_main_v11_apply, val_main_v4_apply,
    val_main_cst_0_apply, e1, e2]
  simp only [e3, Ideal.mulf_def, Ideal.addf_def, Ideal.subf_def, Ideal.ofBits_def, Ideal.ofBits_zero_f32, zero_add]
  rfl

/-- The product the maximum runs over, at (t, h, b): `nbl`. -/
theorem v19_at (t : Fin 64) (h : Fin 32) (b : Fin 2048) :
    val_main_v19 (F := Ideal) x1 x3 x4 x5 (ix3 t h b) = nbl (val_main_v1 (F := Ideal) x5) x4 x3 x1 t h b := by
  have e1 : idx_main_v14 (idx_main_v18 (ix3 t h b)) = ix2 t b :=
    funext fun a => Fin.ext (by match a with | ⟨0, _⟩ => rfl | ⟨1, _⟩ => rfl)
  have e2 : idx_main_v15 (idx_main_v18 (ix3 t h b)) = ix2 t b :=
    funext fun a => Fin.ext (by match a with | ⟨0, _⟩ => rfl | ⟨1, _⟩ => rfl)
  have e3 : ∀ w : Fin 8, idx_main_v5 (ix3 t h b) w = ix4 t h w b := fun w =>
    funext fun a => Fin.ext (by match a with | ⟨0, _⟩ => rfl | ⟨1, _⟩ => rfl | ⟨2, _⟩ => rfl | ⟨3, _⟩ => rfl)
  rw [val_main_v19_apply, val_main_v18_apply, val_main_v16_apply, val_main_v14_apply, val_main_v15_apply,
    val_main_v3_apply, val_main_v2_apply, val_main_cst_apply, val_main_v17_apply, val_main_v5_apply,
    val_main_cst_1_apply, e1, e2]
  simp only [e3, Ideal.mulf_def, Ideal.addf_def, Ideal.subf_def, Ideal.ofBits_def, Ideal.ofBits_zero_f32, zero_add]
  rfl

/-- A town's loss as the reference computes it. -/
theorem v22_at (t : Fin 64) (b : Fin 2048) :
    val_main_v22 (F := Ideal) x0 x1 x2 x3 x4 x5 (ix2 t b)
      = town x0 x1 x2 x3 x4 (val_main_v1 (F := Ideal) x5) t b := by
  rw [val_main_v22_apply]
  unfold val_main_v20 val_main_v21
  rw [Host.reduce_eq_fold_single FloatOps.minimumf _ _ reducesTo_S64x32x2048_S64x2048_d1 redH h_S_ (ix2 t b),
    Host.reduce_eq_fold_single FloatOps.maximumf _ _ reducesTo_S64x32x2048_S64x2048_d1 redH h_S_ (ix2 t b)]
  unfold town
  rw [Ideal.addf_def]
  congr 1
  · refine Finset.fold_congr (fun k _ => ?_)
    exact (congrArg (val_main_v13 (F := Ideal) x0 x2 x4 x5) (lift_house t b k)).trans (v13_at x0 x2 x4 x5 t k b)
  · refine Finset.fold_congr (fun k _ => ?_)
    exact (congrArg (val_main_v19 (F := Ideal) x1 x3 x4 x5) (lift_house t b k)).trans (v19_at x1 x3 x4 x5 t k b)

/-- What the reference sums over the batch: at entry b, the per-batch loss. -/
theorem v23_eq :
    val_main_v23 (F := Ideal) x0 x1 x2 x3 x4 x5
      = fun i => perBatch x0 x1 x2 x3 x4 (val_main_v1 (F := Ideal) x5) (i 0) := by
  funext i
  have e : ∀ k : Fin 64, idx_main_v23 i k = ix2 k (i 0) := fun k =>
    funext fun a => Fin.ext (by match a with | ⟨0, _⟩ => rfl | ⟨1, _⟩ => rfl)
  rw [val_main_v23_apply, val_main_cst_5_apply]
  show Ideal.ofBits .f32 0x00000000#32 + _ = _
  rw [Ideal.ofBits_zero_f32, zero_add]
  unfold perBatch
  refine Finset.sum_congr rfl (fun k _ => ?_)
  rw [e k]
  exact v22_at x0 x1 x2 x3 x4 x5 k (i 0)

end Cert.ReferenceIdeal.RefValue

end
-- ==== Proof.lean ====
/-
  The proof of `Cert.Claim`: the Pallas per-town loss kernel against its jnp reference, over the extended reals.

  Both programs compute, for every batch entry b, the sum over the 64 towns t of
      min over the 32 houses h of (belongs t b * (1 - contained t b)) * (outer_frame t h b + Σ_w inner_window t h w b)
    + max over the 32 houses h of ((1 - belongs t b) * contained t b) * (inner_frame t h b + Σ_w outer_window t h w b),
  and return the mean over the 2048 batch entries (a sum from 0 divided by the word 2048.0).
  The kernel takes the houses in two chunks of 16 through two running accumulators reset to +∞ and -∞; the
  reference folds all 32 at once. A minimum (maximum) over the 32 houses is the minimum (maximum) of the two chunks'
  folds, in any linear order, so the two results are one extended real; no finiteness of the inputs is used.

  The three frames: the two kernel programs' are the generated frame runs; the reference's is its generated run
  with the result dropped. The ideal pass rewrote nothing, so `preserves` is `True`.
-/
import proofs.«130797_j16484084483043_1_alg».proof.Defs
import proofs.«130797_j16484084483043_1_alg».proof.Proof.Gen.Kernel
import proofs.«130797_j16484084483043_1_alg».proof.Proof.Gen.Kernel.Skeleton
import proofs.«130797_j16484084483043_1_alg».proof.Proof.Gen.Kernel.Launch
import proofs.«130797_j16484084483043_1_alg».proof.Proof.Gen.Kernel.Points
import proofs.«130797_j16484084483043_1_alg».proof.Proof.Gen.Kernel.Frame
import proofs.«130797_j16484084483043_1_alg».proof.Proof.Gen.KernelIdeal
import proofs.«130797_j16484084483043_1_alg».proof.Proof.Gen.KernelIdeal.Skeleton
import proofs.«130797_j16484084483043_1_alg».proof.Proof.Gen.KernelIdeal.Launch
import proofs.«130797_j16484084483043_1_alg».proof.Proof.Gen.KernelIdeal.Points
import proofs.«130797_j16484084483043_1_alg».proof.Proof.Gen.KernelIdeal.Frame
import proofs.«130797_j16484084483043_1_alg».proof.Proof.Gen.ReferenceIdeal
import proofs.«130797_j16484084483043_1_alg».proof.Proof.Gen.ReferenceIdeal.Run
import proofs.«130797_j16484084483043_1_alg».proof.Proof.Gen.ReferenceIdeal.Read
import proofs.«130797_j16484084483043_1_alg».proof.Proof.Gen.Pre_finite_inputs
import proofs.«130797_j16484084483043_1_alg».proof.Proof.KernelRun
import proofs.«130797_j16484084483043_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At `Ideal` the kernel program ends with the mean of the per-batch losses of its arguments, and so does the
    reference of arguments that agree: its batch sum runs over the same per-batch losses (the two-chunk fold is the
    whole fold), from the same 0, divided by the same word. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v25_eq]
  unfold Cert.ReferenceIdeal.Read.val_main_v25 Cert.ReferenceIdeal.Read.val_main_v24
  rw [Cert.ReferenceIdeal.RefValue.v23_eq, a0, a1, a2, a3, a4, a5]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
